-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x15x3 : Shape := ⟨3, ![1000000, 15, 3]⟩
abbrev S_ : Shape := ⟨0, ![]⟩

class Facts : Prop where
  bcast_S_S1000000x15x3 : S_.BroadcastsInDim S1000000x15x3 (![] : Fin 0 → Fin S1000000x15x3.rank)
  reducesTo_S1000000x15x3_S_d0_1_2 : S1000000x15x3.ReducesTo [0, 1, 2] S_
  h_S_ : 0 < S_.numel

variable [Facts]

def fn {F : FTy → Type} [FloatOps F] (main_arg0 : FVec F S1000000x15x3 .f32) : IVec S_ 1 :=
  let main_v0 : FVec F S1000000x15x3 .f32 := Host.absf main_arg0
  let main_cst : FVec F S_ .f32 := constant S_ .f32 0x7F800000#32
  let main_v1 : FVec F S1000000x15x3 .f32 := broadcastInDim S1000000x15x3 ![] bcast_S_S1000000x15x3 main_cst
  let main_v2 : IVec S1000000x15x3 1 := cmpf .olt main_v0 main_v1
  let main_c : IVec S_ 1 := constantI S_ 1 1#1
  let main_v3 : IVec S_ 1 := (fun x v => Host.reduce IntOp.andi x v reducesTo_S1000000x15x3_S_d0_1_2 h_S_) main_v2 main_c
  main_v3
-- ==== Kernel.lean ====
abbrev S1000000x15x3 : Shape := ⟨3, ![1000000, 15, 3]⟩
abbrev S1000000x45 : Shape := ⟨2, ![1000000, 45]⟩
abbrev S1000000x15 : Shape := ⟨2, ![1000000, 15]⟩
abbrev S8000x45 : Shape := ⟨2, ![8000, 45]⟩
abbrev S8000x15 : Shape := ⟨2, ![8000, 15]⟩
abbrev S8000x3 : Shape := ⟨2, ![8000, 3]⟩
abbrev S8000 : Shape := ⟨1, ![8000]⟩
abbrev S8000x1 : Shape := ⟨2, ![8000, 1]⟩
abbrev S1000000x15x1 : Shape := ⟨3, ![1000000, 15, 1]⟩

abbrev nBuf : Space → Nat
  | .hbm => 4
  | .vmem => 4
  | .smem => 0
  | _ => 0

abbrev bufTy : (tb : Table) → Fin (tcTables nBuf tb) → BufTy
  | .hbm, ⟨0, _⟩ => ⟨S1000000x15x3, .f32⟩
  | .hbm, ⟨1, _⟩ => ⟨S1000000x45, .f32⟩
  | .hbm, ⟨2, _⟩ => ⟨S1000000x15, .f32⟩
  | .hbm, ⟨3, _⟩ => ⟨S1000000x15x1, .f32⟩
  | .local _ .vmem, ⟨0, _⟩ => ⟨S8000x45, .f32⟩
  | .local _ .vmem, ⟨1, _⟩ => ⟨S8000x45, .f32⟩
  | .local _ .vmem, ⟨2, _⟩ => ⟨S8000x15, .f32⟩
  | .local _ .vmem, ⟨3, _⟩ => ⟨S8000x15, .f32⟩
  | _, _ => ⟨S1000000x15x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x45 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1000000x15x3_S1000000x45 : S1000000x15x3.ShapeCasts S1000000x45
  inb_S8000x45_S8000x45_0_0 : ∀ a, (![0, 0] : Fin 2 → Nat) a + S8000x45.size a ≤ S8000x45.size a
  h_S8000x45 : 0 < S8000x45.numel
  shapeCasts_S8000x45_S8000x45 : S8000x45.ShapeCasts S8000x45
  slices_S8000x45_o0_0_S8000x3 : S8000x45.Slices ![0, 0] S8000x3
  reduces_S8000x3_S8000 : S8000x3.Reduces [1] S8000
  shapeCasts_S8000_S8000x1 : S8000.ShapeCasts S8000x1
  inb_S8000x15_S8000x1_0_0 : ∀ a, (![0, 0] : Fin 2 → Nat) a + S8000x1.size a ≤ S8000x15.size a
  h_S8000x1 : 0 < S8000x1.numel
  slices_S8000x45_o0_3_S8000x3 : S8000x45.Slices ![0, 3] S8000x3
  inb_S8000x15_S8000x1_0_1 : ∀ a, (![0, 1] : Fin 2 → Nat) a + S8000x1.size a ≤ S8000x15.size a
  slices_S8000x45_o0_6_S8000x3 : S8000x45.Slices ![0, 6] S8000x3
  inb_S8000x15_S8000x1_0_2 : ∀ a, (![0, 2] : Fin 2 → Nat) a + S8000x1.size a ≤ S8000x15.size a
  slices_S8000x45_o0_9_S8000x3 : S8000x45.Slices ![0, 9] S8000x3
  inb_S8000x15_S8000x1_0_3 : ∀ a, (![0, 3] : Fin 2 → Nat) a + S8000x1.size a ≤ S8000x15.size a
  slices_S8000x45_o0_12_S8000x3 : S8000x45.Slices ![0, 12] S8000x3
  inb_S8000x15_S8000x1_0_4 : ∀ a, (![0, 4] : Fin 2 → Nat) a + S8000x1.size a ≤ S8000x15.size a
  slices_S8000x45_o0_15_S8000x3 : S8000x45.Slices ![0, 15] S8000x3
  inb_S8000x15_S8000x1_0_5 : ∀ a, (![0, 5] : Fin 2 → Nat) a + S8000x1.size a ≤ S8000x15.size a
  slices_S8000x45_o0_18_S8000x3 : S8000x45.Slices ![0, 18] S8000x3
  inb_S8000x15_S8000x1_0_6 : ∀ a, (![0, 6] : Fin 2 → Nat) a + S8000x1.size a ≤ S8000x15.size a
  slices_S8000x45_o0_21_S8000x3 : S8000x45.Slices ![0, 21] S8000x3
  inb_S8000x15_S8000x1_0_7 : ∀ a, (![0, 7] : Fin 2 → Nat) a + S8000x1.size a ≤ S8000x15.size a
  slices_S8000x45_o0_24_S8000x3 : S8000x45.Slices ![0, 24] S8000x3
  inb_S8000x15_S8000x1_0_8 : ∀ a, (![0, 8] : Fin 2 → Nat) a + S8000x1.size a ≤ S8000x15.size a
  slices_S8000x45_o0_27_S8000x3 : S8000x45.Slices ![0, 27] S8000x3
  inb_S8000x15_S8000x1_0_9 : ∀ a, (![0, 9] : Fin 2 → Nat) a + S8000x1.size a ≤ S8000x15.size a
  slices_S8000x45_o0_30_S8000x3 : S8000x45.Slices ![0, 30] S8000x3
  inb_S8000x15_S8000x1_0_10 : ∀ a, (![0, 10] : Fin 2 → Nat) a + S8000x1.size a ≤ S8000x15.size a
  slices_S8000x45_o0_33_S8000x3 : S8000x45.Slices ![0, 33] S8000x3
  inb_S8000x15_S8000x1_0_11 : ∀ a, (![0, 11] : Fin 2 → Nat) a + S8000x1.size a ≤ S8000x15.size a
  slices_S8000x45_o0_36_S8000x3 : S8000x45.Slices ![0, 36] S8000x3
  inb_S8000x15_S8000x1_0_12 : ∀ a, (![0, 12] : Fin 2 → Nat) a + S8000x1.size a ≤ S8000x15.size a
  slices_S8000x45_o0_39_S8000x3 : S8000x45.Slices ![0, 39] S8000x3
  inb_S8000x15_S8000x1_0_13 : ∀ a, (![0, 13] : Fin 2 → Nat) a + S8000x1.size a ≤ S8000x15.size a
  slices_S8000x45_o0_42_S8000x3 : S8000x45.Slices ![0, 42] S8000x3
  inb_S8000x15_S8000x1_0_14 : ∀ a, (![0, 14] : Fin 2 → Nat) a + S8000x1.size a ≤ S8000x15.size a
  shapeCasts_S1000000x15_S1000000x15x1 : S1000000x15.ShapeCasts S1000000x15x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x45.size a ≤ S1000000x45.size a
  hwx0_0 : ∀ i : grid0.Coords, EltTy.bits .f32 = 32 ∨ (Rect.block (s := S1000000x45) S8000x45.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x15.size a ≤ S1000000x15.size a
  hwx0_1 : ∀ i : grid0.Coords, EltTy.bits .f32 = 32 ∨ (Rect.block (s := S1000000x15) S8000x15.size (cc0_transform_1 i) (hinb0_1 i)).WholeWords (EltTy.packing .f32)

variable [Facts₀]

abbrev win0_0 : Pipeline.Window sig grid0 :=
  Pipeline.Window.ofSpec (Memref.whole main_v0) S8000x45.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x15x3 : Shape := ⟨3, ![1000000, 15, 3]⟩
abbrev S15 : Shape := ⟨1, ![15]⟩
abbrev S_ : Shape := ⟨0, ![]⟩
abbrev S15x1 : Shape := ⟨2, ![15, 1]⟩
abbrev S1000000x15 : Shape := ⟨2, ![1000000, 15]⟩
abbrev S1000000x15x1 : Shape := ⟨3, ![1000000, 15, 1]⟩

abbrev nBuf : Space → Nat
  | .hbm => 17
  | .vmem => 0
  | .smem => 0
  | _ => 0

abbrev bufTy : (tb : Table) → Fin (tcTables nBuf tb) → BufTy
  | .hbm, ⟨0, _⟩ => ⟨S1000000x15x3, .f32⟩
  | .hbm, ⟨1, _⟩ => ⟨S15, .i32⟩
  | .hbm, ⟨2, _⟩ => ⟨S_, .i32⟩
  | .hbm, ⟨3, _⟩ => ⟨S15, .i32⟩
  | .hbm, ⟨4, _⟩ => ⟨S15, .i1⟩
  | .hbm, ⟨5, _⟩ => ⟨S_, .i32⟩
  | .hbm, ⟨6, _⟩ => ⟨S15, .i32⟩
  | .hbm, ⟨7, _⟩ => ⟨S15, .i32⟩
  | .hbm, ⟨8, _⟩ => ⟨S15, .i32⟩
  | .hbm, ⟨9, _⟩ => ⟨S15x1, .i32⟩
  | .hbm, ⟨10, _⟩ => ⟨S1000000x15x3, .f32⟩
  | .hbm, ⟨11, _⟩ => ⟨S1000000x15x3, .f32⟩
  | .hbm, ⟨12, _⟩ => ⟨S1000000x15x3, .f32⟩
  | .hbm, ⟨13, _⟩ => ⟨S_, .f32⟩
  | .hbm, ⟨14, _⟩ => ⟨S1000000x15, .f32⟩
  | .hbm, ⟨15, _⟩ => ⟨S1000000x15x1, .f32⟩
  | .hbm, ⟨16, _⟩ => ⟨S1000000x15x1, .f32⟩
  | _, _ => ⟨S1000000x15x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S15 : S_.BroadcastsInDim S15 (![] : Fin 0 → Fin S15.rank)
  bcast_S15_S15x1_0 : S15.BroadcastsInDim S15x1 (![0] : Fin 1 → Fin S15x1.rank)
  reducesTo_S1000000x15x3_S1000000x15_d2 : S1000000x15x3.ReducesTo [2] S1000000x15
  h_S_ : 0 < S_.numel
  bcast_S1000000x15_S1000000x15x1_0_1 : S1000000x15.BroadcastsInDim S1000000x15x1 (![0, 1] : Fin 2 → Fin S1000000x15x1.rank)
  gather_S1000000x15x3_S15x1_S1000000x15x3_02_1_n_n_1_1_100000013_wf : GatherDims.WF S1000000x15x3 S15x1 S1000000x15x3 [0, 2] [1] [] [1] [] 1 ![1000000, 1, 3]

variable [Facts₀]

def gather_S1000000x15x3_S15x1_S1000000x15x3_02_1_n_n_1_1_100000013 : GatherDims S1000000x15x3 S15x1 S1000000x15x3 where
  offsetDims := [0, 2]
  collapsedSliceDims := [1]
  operandBatchingDims := []
  startIndicesBatchingDims := []
  startIndexMap := [1]
  indexVectorDim := 1
  sliceSizes := ![1000000, 1, 3]
  wf := gather_S1000000x15x3_S15x1_S1000000x15x3_02_1_n_n_1_1_100000013_wf

class Facts : Prop extends Facts₀ where

variable [Facts]
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.Spec.lean ====
/-
  The limb lengths of a skeleton.

  A pose is 15 keypoints in 3-space; keypoint `k` is joined to keypoint `parent k` (the root and nothing else to itself).
  For each of a million poses the result holds, for every keypoint, the Euclidean distance to the keypoint it is joined to:
  the square root of the sum over the three coordinates of the squared difference. Over the extended reals this is one
  function `G` of the array of poses, stated index by index; both programs are shown to compute it. Nothing here needs the
  entries to be finite: the two programs form the same differences, the same squares and the same three-term sum, so no
  law of arithmetic beyond `0 + s = s` is used to join them.
-/
import Idealize.ShloMosaic.PureOps.Ideal
import Idealize.ShloMosaic.Lib.ValueIdx

noncomputable section

open scoped BigOperators

namespace Cert.Limb

open Idealize.ShloMosaic Idealize.ShloMosaic.ValueIdx

/-- A million poses of 15 keypoints with 3 coordinates each. -/
abbrev SPose : Shape := ⟨3, ![1000000, 15, 3]⟩
/-- A million poses of 15 limb lengths, kept as a trailing unit axis. -/
abbrev SLen : Shape := ⟨3, ![1000000, 15, 1]⟩

/-- The keypoint that keypoint `k` is joined to. -/
def parent : Fin 15 → Fin 15 := ![0, 0, 1, 1, 1, 3, 4, 5, 6, 2, 2, 9, 10, 11, 12]

/-- The squared difference, on coordinate `d`, between keypoint `k` of pose `b` and the keypoint it is joined to. -/
def sqDiff (x : SPose.Idx → EReal) (b : Fin 1000000) (k : Fin 15) (d : Fin 3) : EReal :=
  (x (ix3 b k d) - x (ix3 b (parent k) d)) * (x (ix3 b k d) - x (ix3 b (parent k) d))

/-- The length of limb `k` of pose `b`. -/
def len (x : SPose.Idx → EReal) (b : Fin 1000000) (k : Fin 15) : EReal :=
  Ideal.sqrt (∑ d : Fin 3, sqDiff x b k d)

/-- All limb lengths: entry `(b, k, 0)` is the length of limb `k` of pose `b`. -/
def G (x : SPose.Idx → EReal) : SLen.Idx → EReal := fun i => len x (i 0) (i 1)

theorem G_apply (x : SPose.Idx → EReal) (b : Fin 1000000) (k : Fin 15) (q : Fin 1) : G x (ix3 b k q) = len x b k := rfl

end Cert.Limb

end
-- ==== Proof.KerCol.lean ====
/-
  One block of the kernel: 8000 poses, each a row of 45 numbers (15 keypoints by 3 coordinates, keypoint `k` at lanes
  `3k, 3k+1, 3k+2`). For keypoint `k` the body cuts the three lanes of `k` and the three lanes of the keypoint it is joined to,
  subtracts, squares, sums the three lanes of each row, keeps the sums as a column and takes the square root; the column is
  stored as column `k` of the block of results. Here: such a column read at row `p` is the square root of the sum of the three
  squared differences (`colOf_apply`); cut at `3k` and `3 (parent k)` it is the length of limb `k` of the row (`col_limb`); and
  stored through the one-column rectangle at column `k` it agrees, where it lies, with the one function "entry `(p, k)` is the
  length of limb `k` of row `p`" (`piece_eq`).
-/
import proofs.«116637_j80831284510869_1_alg».proof.Proof.Gen.KernelIdeal.Frame
import proofs.«116637_j80831284510869_1_alg».proof.Proof.LibRowOps
import proofs.«116637_j80831284510869_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Col

open Cert.KernelIdeal Cert.KernelIdeal.Gen Cert.Limb
open Idealize.ShloMosaic Idealize.ShloMosaic.TcCoe Idealize.ShloMosaic.ValueIdx

/-- Lane `o + d` of a row of 45, for `d` one of three lanes cut from lane `o` on. -/
theorem lane_lt {o : Nat} (h : S8000x45.Slices ![0, o] S8000x3) (d : Fin 3) : o + d.val < 45 :=
  Nat.lt_of_lt_of_le (Nat.add_lt_add_left d.isLt o) (h.2 1)

/-- The length of limb `k` of row `p` of a block: the square root of the sum over the three coordinates of the squared
    difference between lanes `3k + d` and `3 (parent k) + d`. -/
def blkLen (v : S8000x45.Idx → EReal) (p : Fin 8000) (k : Fin 15) : EReal :=
  Ideal.sqrt (∑ d : Fin 3,
    (v (ix2 p (⟨3 * k.val + d.val, by have := k.isLt; have := d.isLt; omega⟩ : Fin 45))
      - v (ix2 p (⟨3 * (parent k).val + d.val, by have := (parent k).isLt; have := d.isLt; omega⟩ : Fin 45)))
    * (v (ix2 p (⟨3 * k.val + d.val, by have := k.isLt; have := d.isLt; omega⟩ : Fin 45))
      - v (ix2 p (⟨3 * (parent k).val + d.val, by have := (parent k).isLt; have := d.isLt; omega⟩ : Fin 45))))

/-- The block's limb lengths as one function of the result block's index. -/
def blkLens (v : S8000x45.Idx → EReal) : S8000x15.Idx → Elt Ideal .f32 := fun y => blkLen v (y 0) (y 1)

/-- One column as the body computes it: from the lanes cut at `o1` and at `o2`, the square root of the row sums of the
    squared differences, kept as a column. -/
def colOf (v : FVec Ideal S8000x45 .f32) (o1 o2 : Nat) (h1 : S8000x45.Slices ![0, o1] S8000x3)
    (h2 : S8000x45.Slices ![0, o2] S8000x3) : FVec Ideal S8000x1 .f32 :=
  sqrt (shapeCast S8000x1 (multiReduction .add [1] S8000
      (mulf (subf (extractStridedSlice S8000x3 ![0, o1] v h1) (extractStridedSlice S8000x3 ![0, o2] v h2))
        (subf (extractStridedSlice S8000x3 ![0, o1] v h1) (extractStridedSlice S8000x3 ![0, o2] v h2)))
      0x00000000#32 reduces_S8000x3_S8000 (.inl rfl) rfl) shapeCasts_S8000_S8000x1)

/-- That column at row `p`: the square root of the sum over `d` of the squared difference of lanes `o1 + d` and `o2 + d`. -/
theorem colOf_apply (v : FVec Ideal S8000x45 .f32) (o1 o2 : Nat) (h1 : S8000x45.Slices ![0, o1] S8000x3)
    (h2 : S8000x45.Slices ![0, o2] S8000x3) (p : Fin 8000) (q : Fin 1) :
    colOf v o1 o2 h1 h2 (ix2 p q) = Ideal.sqrt (∑ d : Fin 3,
      (v (ix2 p (⟨o1 + d.val, lane_lt h1 d⟩ : Fin 45)) - v (ix2 p (⟨o2 + d.val, lane_lt h2 d⟩ : Fin 45)))
      * (v (ix2 p (⟨o1 + d.val, lane_lt h1 d⟩ : Fin 45)) - v (ix2 p (⟨o2 + d.val, lane_lt h2 d⟩ : Fin 45)))) := by
  unfold colOf
  rw [Cert.RowOps.sqrt_apply, Cert.RowOps.castCol_apply]
  refine congrArg Ideal.sqrt ((Cert.RowOps.laneSum_apply (R := 8000) (C := 3) _ _ _ _ _ p).trans ?_)
  refine Finset.sum_congr rfl fun d _ => ?_
  show (extractStridedSlice S8000x3 ![0, o1] v h1 (ix2 p d) - extractStridedSlice S8000x3 ![0, o2] v h2 (ix2 p d))
      * (extractStridedSlice S8000x3 ![0, o1] v h1 (ix2 p d) - extractStridedSlice S8000x3 ![0, o2] v h2 (ix2 p d)) = _
  rw [slice2_axis1_eq o1 v h1 p d, slice2_axis1_eq o2 v h2 p d]

/-- Cut at `3k` and at `3 (parent k)`, the column at row `p` is the length of limb `k` of that row. -/
theorem col_limb (v : FVec Ideal S8000x45 .f32) (k : Fin 15) (o1 o2 : Nat) (h1 : S8000x45.Slices ![0, o1] S8000x3)
    (h2 : S8000x45.Slices ![0, o2] S8000x3) (e1 : o1 = 3 * k.val) (e2 : o2 = 3 * (parent k).val) (p : Fin 8000) (q : Fin 1) :
    colOf v o1 o2 h1 h2 (ix2 p q) = blkLen v p k := by
  subst e1 e2
  rw [colOf_apply]
  rfl

/-- Stored through the one-column rectangle at column `k`, that column agrees with the block's limb lengths where it lies:
    its entry `(p, 0)` lands at `(p, k)`. -/
theorem piece_eq (v : FVec Ideal S8000x45 .f32) (k : Fin 15) (o1 o2 : Nat) (h1 : S8000x45.Slices ![0, o1] S8000x3)
    (h2 : S8000x45.Slices ![0, o2] S8000x3) (e1 : o1 = 3 * k.val) (e2 : o2 = 3 * (parent k).val)
    (inb : ∀ a, (![0, k.val] : Fin 2 → Nat) a + S8000x1.size a ≤ S8000x15.size a) (x : S8000x1.Idx) :
    colOf v o1 o2 h1 h2 x = blkLens v ((Rect.unit (s := S8000x15) ![0, k.val] S8000x1.size inb).emb x) := by
  obtain ⟨p, q, rfl⟩ : ∃ (p : Fin 8000) (q : Fin 1), x = ix2 p q := ⟨x 0, x 1, eq_ix2 x⟩
  rw [col_limb v k o1 o2 h1 h2 e1 e2 p q]
  have a : ((Rect.unit (s := S8000x15) ![0, k.val] S8000x1.size inb).emb (ix2 p q) 0 : Fin 8000) = p :=
    Fin.ext (by show 0 + 1 * p.val = p.val; omega)
  have b : ((Rect.unit (s := S8000x15) ![0, k.val] S8000x1.size inb).emb (ix2 p q) 1 : Fin 15) = k :=
    Fin.ext (by show k.val + 1 * q.val = k.val; have := q.isLt; omega)
  exact (congrArg₂ (blkLen v) a b).symm

/-- The block is loaded whole and its shape cast to itself: the body works on the block as it is. -/
theorem pay2_eq (x0 : Vec Ideal S8000x45 .f32) : k0_pay2 (F := Ideal) x0 = x0 := shapeCast_self _ _

end Cert.KernelIdeal.Col

end
-- ==== Proof.KerColTable.lean ====
import proofs.«116637_j80831284510869_1_alg».proof.Proof.KerCol

set_option maxRecDepth 16384

noncomputable section

namespace Cert.KernelIdeal.Col

open Cert.KernelIdeal Cert.KernelIdeal.Gen Cert.Limb
open Idealize.ShloMosaic Idealize.ShloMosaic.TcCoe Idealize.ShloMosaic.ValueIdx

/-- Column 0: keypoint 0 against keypoint 0, lanes 0.. against lanes 0... -/
theorem col0_eq (x0 : Vec Ideal S8000x45 .f32) :
    k0_pay3 (F := Ideal) x0 = colOf x0 0 0 slices_S8000x45_o0_0_S8000x3 slices_S8000x45_o0_0_S8000x3 := by
  unfold colOf k0_pay3
  simp only [pay2_eq]
theorem piece0 (x0 : Vec Ideal S8000x45 .f32) (x : S8000x1.Idx) :
    (k0_pay3 (F := Ideal) x0) x = blkLens x0 (r0_1.emb x) :=
  (congrFun (col0_eq x0) x).trans (piece_eq x0 ⟨0, by decide⟩ 0 0 _ _ rfl rfl _ x)

/-- Column 1: keypoint 1 against keypoint 0, lanes 3.. against lanes 0... -/
theorem col1_eq (x0 : Vec Ideal S8000x45 .f32) :
    k0_pay4 (F := Ideal) x0 = colOf x0 3 0 slices_S8000x45_o0_3_S8000x3 slices_S8000x45_o0_0_S8000x3 := by
  unfold colOf k0_pay4
  simp only [pay2_eq]
theorem piece1 (x0 : Vec Ideal S8000x45 .f32) (x : S8000x1.Idx) :
    (k0_pay4 (F := Ideal) x0) x = blkLens x0 (r0_2.emb x) :=
  (congrFun (col1_eq x0) x).trans (piece_eq x0 ⟨1, by decide⟩ 3 0 _ _ rfl rfl _ x)

/-- Column 2: keypoint 2 against keypoint 1, lanes 6.. against lanes 3... -/
theorem col2_eq (x0 : Vec Ideal S8000x45 .f32) :
    k0_pay5 (F := Ideal) x0 = colOf x0 6 3 slices_S8000x45_o0_6_S8000x3 slices_S8000x45_o0_3_S8000x3 := by
  unfold colOf k0_pay5
  simp only [pay2_eq]
theorem piece2 (x0 : Vec Ideal S8000x45 .f32) (x : S8000x1.Idx) :
    (k0_pay5 (F := Ideal) x0) x = blkLens x0 (r0_3.emb x) :=
  (congrFun (col2_eq x0) x).trans (piece_eq x0 ⟨2, by decide⟩ 6 3 _ _ rfl rfl _ x)

/-- Column 3: keypoint 3 against keypoint 1, lanes 9.. against lanes 3... -/
theorem col3_eq (x0 : Vec Ideal S8000x45 .f32) :
    k0_pay6 (F := Ideal) x0 = colOf x0 9 3 slices_S8000x45_o0_9_S8000x3 slices_S8000x45_o0_3_S8000x3 := by
  unfold colOf k0_pay6
  simp only [pay2_eq]
theorem piece3 (x0 : Vec Ideal S8000x45 .f32) (x : S8000x1.Idx) :
    (k0_pay6 (F := Ideal) x0) x = blkLens x0 (r0_4.emb x) :=
  (congrFun (col3_eq x0) x).trans (piece_eq x0 ⟨3, by decide⟩ 9 3 _ _ rfl rfl _ x)

/-- Column 4: keypoint 4 against keypoint 1, lanes 12.. against lanes 3... -/
theorem col4_eq (x0 : Vec Ideal S8000x45 .f32) :
    k0_pay8 (F := Ideal) (k0_pay7 (F := Ideal) x0) = colOf x0 12 3 slices_S8000x45_o0_12_S8000x3 slices_S8000x45_o0_3_S8000x3 := by
  unfold colOf k0_pay8 k0_pay7
  simp only [pay2_eq]
theorem piece4 (x0 : Vec Ideal S8000x45 .f32) (x : S8000x1.Idx) :
    (k0_pay8 (F := Ideal) (k0_pay7 (F := Ideal) x0)) x = blkLens x0 (r0_5.emb x) :=
  (congrFun (col4_eq x0) x).trans (piece_eq x0 ⟨4, by decide⟩ 12 3 _ _ rfl rfl _ x)

/-- Column 5: keypoint 5 against keypoint 3, lanes 15.. against lanes 9... -/
theorem col5_eq (x0 : Vec Ideal S8000x45 .f32) :
    k0_pay9 (F := Ideal) (k0_pay2 (F := Ideal) x0) = colOf x0 15 9 slices_S8000x45_o0_15_S8000x3 slices_S8000x45_o0_9_S8000x3 := by
  unfold colOf k0_pay9
  simp only [pay2_eq]
theorem piece5 (x0 : Vec Ideal S8000x45 .f32) (x : S8000x1.Idx) :
    (k0_pay9 (F := Ideal) (k0_pay2 (F := Ideal) x0)) x = blkLens x0 (r0_6.emb x) :=
  (congrFun (col5_eq x0) x).trans (piece_eq x0 ⟨5, by decide⟩ 15 9 _ _ rfl rfl _ x)

/-- Column 6: keypoint 6 against keypoint 4, lanes 18.. against lanes 12... -/
theorem col6_eq (x0 : Vec Ideal S8000x45 .f32) :
    k0_pay10 (F := Ideal) (k0_pay2 (F := Ideal) x0) = colOf x0 18 12 slices_S8000x45_o0_18_S8000x3 slices_S8000x45_o0_12_S8000x3 := by
  unfold colOf k0_pay10
  simp only [pay2_eq]
theorem piece6 (x0 : Vec Ideal S8000x45 .f32) (x : S8000x1.Idx) :
    (k0_pay10 (F := Ideal) (k0_pay2 (F := Ideal) x0)) x = blkLens x0 (r0_7.emb x) :=
  (congrFun (col6_eq x0) x).trans (piece_eq x0 ⟨6, by decide⟩ 18 12 _ _ rfl rfl _ x)

/-- Column 7: keypoint 7 against keypoint 5, lanes 21.. against lanes 15... -/
theorem col7_eq (x0 : Vec Ideal S8000x45 .f32) :
    k0_pay11 (F := Ideal) (k0_pay2 (F := Ideal) x0) = colOf x0 21 15 slices_S8000x45_o0_21_S8000x3 slices_S8000x45_o0_15_S8000x3 := by
  unfold colOf k0_pay11
  simp only [pay2_eq]
theorem piece7 (x0 : Vec Ideal S8000x45 .f32) (x : S8000x1.Idx) :
    (k0_pay11 (F := Ideal) (k0_pay2 (F := Ideal) x0)) x = blkLens x0 (r0_8.emb x) :=
  (congrFun (col7_eq x0) x).trans (piece_eq x0 ⟨7, by decide⟩ 21 15 _ _ rfl rfl _ x)

/-- Column 8: keypoint 8 against keypoint 6, lanes 24.. against lanes 18... -/
theorem col8_eq (x0 : Vec Ideal S8000x45 .f32) :
    k0_pay12 (F := Ideal) (k0_pay2 (F := Ideal) x0) = colOf x0 24 18 slices_S8000x45_o0_24_S8000x3 slices_S8000x45_o0_18_S8000x3 := by
  unfold colOf k0_pay12
  simp only [pay2_eq]
theorem piece8 (x0 : Vec Ideal S8000x45 .f32) (x : S8000x1.Idx) :
    (k0_pay12 (F := Ideal) (k0_pay2 (F := Ideal) x0)) x = blkLens x0 (r0_9.emb x) :=
  (congrFun (col8_eq x0) x).trans (piece_eq x0 ⟨8, by decide⟩ 24 18 _ _ rfl rfl _ x)

/-- Column 9: keypoint 9 against keypoint 2, lanes 27.. against lanes 6... -/
theorem col9_eq (x0 : Vec Ideal S8000x45 .f32) :
    k0_pay14 (F := Ideal) (k0_pay13 (F := Ideal) (k0_pay2 (F := Ideal) x0)) = colOf x0 27 6 slices_S8000x45_o0_27_S8000x3 slices_S8000x45_o0_6_S8000x3 := by
  unfold colOf k0_pay14 k0_pay13
  simp only [pay2_eq]
theorem piece9 (x0 : Vec Ideal S8000x45 .f32) (x : S8000x1.Idx) :
    (k0_pay14 (F := Ideal) (k0_pay13 (F := Ideal) (k0_pay2 (F := Ideal) x0))) x = blkLens x0 (r0_10.emb x) :=
  (congrFun (col9_eq x0) x).trans (piece_eq x0 ⟨9, by decide⟩ 27 6 _ _ rfl rfl _ x)

/-- Column 10: keypoint 10 against keypoint 2, lanes 30.. against lanes 6... -/
theorem col10_eq (x0 : Vec Ideal S8000x45 .f32) :
    k0_pay15 (F := Ideal) (k0_pay2 (F := Ideal) x0) = colOf x0 30 6 slices_S8000x45_o0_30_S8000x3 slices_S8000x45_o0_6_S8000x3 := by
  unfold colOf k0_pay15
  simp only [pay2_eq]
theorem piece10 (x0 : Vec Ideal S8000x45 .f32) (x : S8000x1.Idx) :
    (k0_pay15 (F := Ideal) (k0_pay2 (F := Ideal) x0)) x = blkLens x0 (r0_11.emb x) :=
  (congrFun (col10_eq x0) x).trans (piece_eq x0 ⟨10, by decide⟩ 30 6 _ _ rfl rfl _ x)

/-- Column 11: keypoint 11 against keypoint 9, lanes 33.. against lanes 27... -/
theorem col11_eq (x0 : Vec Ideal S8000x45 .f32) :
    k0_pay16 (F := Ideal) (k0_pay2 (F := Ideal) x0) = colOf x0 33 27 slices_S8000x45_o0_33_S8000x3 slices_S8000x45_o0_27_S8000x3 := by
  unfold colOf k0_pay16
  simp only [pay2_eq]
theorem piece11 (x0 : Vec Ideal S8000x45 .f32) (x : S8000x1.Idx) :
    (k0_pay16 (F := Ideal) (k0_pay2 (F := Ideal) x0)) x = blkLens x0 (r0_12.emb x) :=
  (congrFun (col11_eq x0) x).trans (piece_eq x0 ⟨11, by decide⟩ 33 27 _ _ rfl rfl _ x)

/-- Column 12: keypoint 12 against keypoint 10, lanes 36.. against lanes 30... -/
theorem col12_eq (x0 : Vec Ideal S8000x45 .f32) :
    k0_pay17 (F := Ideal) (k0_pay2 (F := Ideal) x0) = colOf x0 36 30 slices_S8000x45_o0_36_S8000x3 slices_S8000x45_o0_30_S8000x3 := by
  unfold colOf k0_pay17
  simp only [pay2_eq]
theorem piece12 (x0 : Vec Ideal S8000x45 .f32) (x : S8000x1.Idx) :
    (k0_pay17 (F := Ideal) (k0_pay2 (F := Ideal) x0)) x = blkLens x0 (r0_13.emb x) :=
  (congrFun (col12_eq x0) x).trans (piece_eq x0 ⟨12, by decide⟩ 36 30 _ _ rfl rfl _ x)

/-- Column 13: keypoint 13 against keypoint 11, lanes 39.. against lanes 33... -/
theorem col13_eq (x0 : Vec Ideal S8000x45 .f32) :
    k0_pay18 (F := Ideal) (k0_pay2 (F := Ideal) x0) = colOf x0 39 33 slices_S8000x45_o0_39_S8000x3 slices_S8000x45_o0_33_S8000x3 := by
  unfold colOf k0_pay18
  simp only [pay2_eq]
theorem piece13 (x0 : Vec Ideal S8000x45 .f32) (x : S8000x1.Idx) :
    (k0_pay18 (F := Ideal) (k0_pay2 (F := Ideal) x0)) x = blkLens x0 (r0_14.emb x) :=
  (congrFun (col13_eq x0) x).trans (piece_eq x0 ⟨13, by decide⟩ 39 33 _ _ rfl rfl _ x)

/-- Column 14: keypoint 14 against keypoint 12, lanes 42.. against lanes 36... -/
theorem col14_eq (x0 : Vec Ideal S8000x45 .f32) :
    k0_pay1 (F := Ideal) (k0_pay19 (F := Ideal) (k0_pay2 (F := Ideal) x0)) = colOf x0 42 36 slices_S8000x45_o0_42_S8000x3 slices_S8000x45_o0_36_S8000x3 := by
  unfold colOf k0_pay1 k0_pay19
  simp only [pay2_eq]
theorem piece14 (x0 : Vec Ideal S8000x45 .f32) (x : S8000x1.Idx) :
    (k0_pay1 (F := Ideal) (k0_pay19 (F := Ideal) (k0_pay2 (F := Ideal) x0))) x = blkLens x0 (r0_15.emb x) :=
  (congrFun (col14_eq x0) x).trans (piece_eq x0 ⟨14, by decide⟩ 42 36 _ _ rfl rfl _ x)

end Cert.KernelIdeal.Col

end
-- ==== Proof.KerOut.lean ====
/-
  What the body leaves in a block of results. Its fifteen stores each write one column, and the columns tile the block; each
  stored column agrees, where it lies, with the one function "entry `(p, k)` is the length of limb `k` of row `p` of the block of
  poses" (the table of the fifteen columns). So the block of results IS that function, whatever the order of the stores.
-/
import proofs.«116637_j80831284510869_1_alg».proof.Proof.KerColTable

set_option maxRecDepth 16384

noncomputable section

namespace Cert.KernelIdeal.Col

open Cert.KernelIdeal Cert.KernelIdeal.Gen Cert.Limb
open Idealize.ShloMosaic Idealize.ShloMosaic.TcCoe Idealize.ShloMosaic.ValueIdx

theorem hz : (![0, 0] : Fin 2 → Nat) = fun _ => 0 := funext fun a => by fin_cases a <;> rfl

/-- The block of results after the body, as one function of the block of poses. -/
theorem out_eq (x0 : Vec Ideal S8000x45 .f32) : out0_1 (F := Ideal) x0 = blkLens x0 := by
  funext y
  unfold out0_1
  rw [View.ld_unit_zero hz]
  refine View.canon_apply_of_pieces (Val := Elt Ideal) (blkLens x0) _ (fun pc hpc x => ?_) y
    (cover0_1 _ _ _ _ _ _ _ _ _ _ _ _ _ _ _ y)
  simp only [List.mem_cons, List.mem_nil_iff, or_false] at hpc
  rcases hpc with rfl | rfl | rfl | rfl | rfl | rfl | rfl | rfl | rfl | rfl | rfl | rfl | rfl | rfl | rfl
  exacts [piece14 x0 x, piece13 x0 x, piece12 x0 x, piece11 x0 x, piece10 x0 x, piece9 x0 x, piece8 x0 x, piece7 x0 x,
    piece6 x0 x, piece5 x0 x, piece4 x0 x, piece3 x0 x, piece2 x0 x, piece1 x0 x, piece0 x0 x]

end Cert.KernelIdeal.Col

end
-- ==== Proof.KerArr.lean ====
/-
  From the blocks to the arrays, and the kernel's run.

  The kernel's program first lays the poses out as a million rows of 45 numbers (row `b`, lane `3k + d` is coordinate `d` of
  keypoint `k` of pose `b`), runs the body on the 125 blocks of 8000 consecutive rows, and lays the million rows of 15 results out
  as `[1000000, 15, 1]`. Point `t` reads rows `8000 t …` and writes rows `8000 t …` of the results, so what it writes back is the
  block of ONE function of the whole array of rows, "entry `(r, k)` is the length of limb `k` of row `r`" (`flushed_eq`); the blocks
  cover every row (row `r` lies in block `r / 8000`), so the array of results is that function (`final`). Read through the two
  re-layouts, entry `(b, k, 0)` of the program's result is the length of limb `k` of pose `b` (`result_eq`).
-/
import proofs.«116637_j80831284510869_1_alg».proof.Proof.KerOut
import Idealize.ShloMosaic.Lib.StableHlo.Run
import Idealize.ShloMosaic.Lib.Pipeline.Value

set_option maxRecDepth 16384

noncomputable section

open scoped BigOperators

namespace Cert.KernelIdeal.Arr

open Cert.KernelIdeal Cert.KernelIdeal.Gen Cert.KernelIdeal.Col Cert.Limb
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The length of limb `k` of row `r` of the array of rows. -/
def rowLen (X : S1000000x45.Idx → EReal) (r : Fin 1000000) (k : Fin 15) : EReal :=
  Ideal.sqrt (∑ d : Fin 3,
    (X (ix2 r (⟨3 * k.val + d.val, by have := k.isLt; have := d.isLt; omega⟩ : Fin 45))
      - X (ix2 r (⟨3 * (parent k).val + d.val, by have := (parent k).isLt; have := d.isLt; omega⟩ : Fin 45)))
    * (X (ix2 r (⟨3 * k.val + d.val, by have := k.isLt; have := d.isLt; omega⟩ : Fin 45))
      - X (ix2 r (⟨3 * (parent k).val + d.val, by have := (parent k).isLt; have := d.isLt; omega⟩ : Fin 45))))

/-- All of them, as one function of the index of the array of results. -/
def rowLens (X : S1000000x45.Idx → EReal) : S1000000x15.Idx → Elt Ideal .f32 := fun j => rowLen X (j 0) (j 1)

/-- A block whose row `p` is row `r` of the array has, at row `p`, the limb lengths of row `r`. -/
theorem blkLen_eq_rowLen (v : S8000x45.Idx → EReal) (X : S1000000x45.Idx → EReal) (p : Fin 8000) (r : Fin 1000000)
    (k k' : Fin 15) (hk : k' = k) (hv : ∀ l : Fin 45, v (ix2 p l) = X (ix2 r l)) : blkLen v p k = rowLen X r k' := by
  subst hk
  unfold blkLen rowLen
  simp only [hv]

/-- Both windows move with the grid point along the rows and stay at lane block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the limb lengths of the array of rows as the region finds it. -/
theorem flushed_eq (c : Dev nD) (t : Fin cfg0.N) :
    (dats m 0 c).flushed 1 t = ((cfg0.win 1).blk t).view.read (Elt Ideal) (rowLens (V m c main_v0)) := by
  show (cfg0.win 1).cut (grid0.coords t) ((dats m 0 c).after 1 t) = _
  rw [after0_1, out_eq]
  obtain ⟨e0, e1, e2, e3⟩ := idx_facts t
  funext j
  have hj1 : (j 1).val < 15 := (j 1).isLt
  show blkLen (iblk m c 0 t) (j 0) (j 1)
    = rowLen (V m c main_v0) (((cfg0.win 1).blk t).view.emb j 0) (((cfg0.win 1).blk t).view.emb j 1)
  refine blkLen_eq_rowLen _ _ _ _ _ _ (Fin.ext ?_) (fun l => ?_)
  · show win0_1.index t (1 : Fin 2) * 15 + 1 * (j 1).val = (j 1).val
    rw [e3]; omega
  · show V m c main_v0 (((cfg0.win 0).blk t).view.emb (ix2 (j 0) l))
      = V m c main_v0 (ix2 (((cfg0.win 1).blk t).view.emb j 0) l)
    congr 1
    funext a; apply Fin.ext
    match a with
    | ⟨0, _⟩ =>
      show win0_0.index t (0 : Fin 2) * 8000 + 1 * (j 0).val = win0_1.index t (0 : Fin 2) * 8000 + 1 * (j 0).val
      rw [e0, e2]
    | ⟨1, _⟩ =>
      show win0_0.index t (1 : Fin 2) * 45 + 1 * l.val = l.val
      rw [e1]; omega

/-- An index of the array of results is in point `t`'s block iff each coordinate is in the block's range on its axis. -/
theorem mem_blk (t : Fin cfg0.N) (i : S1000000x15.Idx) :
    i ∈ ((cfg0.win 1).blk t).view.set ↔ ∀ a : Fin 2, win0_1.index t a * S8000x15.size a ≤ (i a).val
      ∧ (i a).val < win0_1.index t a * S8000x15.size a + S8000x15.size a := by
  show i ∈ ((View.whole main_v1).slice (win0_1.rect t)).set ↔ _
  rw [View.set_slice_whole, Rect.mem_set_unit]
  exact Iff.rfl

/-- Every row is written back: row `r` by point `r / 8000`. -/
theorem cover (i : S1000000x15.Idx) : ∃ t : Fin cfg0.N, (cfg0.win 1).flush t = true ∧ i ∈ ((cfg0.win 1).blk t).view.set := by
  have hi0 : (i 0).val < 1000000 := (i 0).isLt
  have hi1 : (i 1).val < 15 := (i 1).isLt
  have hN : cfg0.N = 125 := N_0
  have ht : (i 0).val / 8000 < cfg0.N := by rw [hN]; omega
  obtain ⟨e0, e1, e2, e3⟩ := idx_facts ⟨(i 0).val / 8000, ht⟩
  refine ⟨⟨(i 0).val / 8000, ht⟩, flush0_1 _, ?_⟩
  rw [mem_blk]
  intro a
  match a with
  | ⟨0, _⟩ =>
    show win0_1.index ⟨(i 0).val / 8000, ht⟩ (0 : Fin 2) * 8000 ≤ (i 0).val
      ∧ (i 0).val < win0_1.index ⟨(i 0).val / 8000, ht⟩ (0 : Fin 2) * 8000 + 8000
    rw [e2]
    show (i 0).val / 8000 * 8000 ≤ (i 0).val ∧ (i 0).val < (i 0).val / 8000 * 8000 + 8000
    omega
  | ⟨1, _⟩ =>
    show win0_1.index ⟨(i 0).val / 8000, ht⟩ (1 : Fin 2) * 15 ≤ (i 1).val
      ∧ (i 1).val < win0_1.index ⟨(i 0).val / 8000, ht⟩ (1 : Fin 2) * 15 + 15
    rw [e3]; omega

/-- The array of results after the region: the limb lengths of the array of rows. -/
theorem final (c : Dev nD) : (dats m 0 c).arrAt 1 cfg0.N = rowLens (V m c main_v0) :=
  (dats m 0 c).arrAt_eq_of_cover 1 (rowLens (V m c main_v0)) (fun t _ => flushed_eq m c t) cover

/-- The array of rows as the region finds it: the poses re-laid. -/
theorem V_rows (c : Dev nD) : (V m c main_v0 : S1000000x45.Idx → EReal)
    = shapeCast S1000000x45 (m ((c : Thread nD τ).loc main_arg0)) shapeCasts_S1000000x15x3_S1000000x45 := by
  show StableHlo.after hostOps0 (fun b => m (c, b)) (Proc.devRef .tc main_v0) = _
  after_results
  rfl

/-- Lane `3k + d` of row `b` is coordinate `d` of keypoint `k` of pose `b`. -/
theorem rows_apply (x : S1000000x15x3.Idx → EReal) (b : Fin 1000000) (k : Fin 15) (d : Fin 3) (l : Fin 45)
    (hl : l.val = 3 * k.val + d.val) :
    shapeCast S1000000x45 x shapeCasts_S1000000x15x3_S1000000x45 (ix2 b l) = x (ix3 b k d) :=
  shapeCast_apply x _ (ix2 b l) (ix3 b k d) (by
    rw [Shape.rowMajor_val_three, Shape.rowMajor_val_two]
    show (b.val * 15 + k.val) * 3 + d.val = b.val * 45 + l.val
    omega)

/-- So the limb lengths of row `b` of the re-laid array are those of pose `b`. -/
theorem rowLen_rows (x : S1000000x15x3.Idx → EReal) (b : Fin 1000000) (k : Fin 15) :
    rowLen (shapeCast S1000000x45 x shapeCasts_S1000000x15x3_S1000000x45) b k = len x b k := by
  unfold rowLen len sqDiff
  refine congrArg Ideal.sqrt (Finset.sum_congr rfl fun d _ => ?_)
  rw [rows_apply x b k d _ rfl, rows_apply x b (parent k) d _ rfl]

/-- The program's result: the lines after the region re-lay the array of results, and entry `(b, k, 0)` is the length of limb
    `k` of pose `b`. -/
theorem result_eq (c : Dev nD) :
    (Pipeline.afterTail₀ cfgs (dats m) 0 (V0 m) [hostOps1] c main_v2 : S1000000x15x1.Idx → EReal)
      = G (m ((c : Thread nD τ).loc main_arg0)) := by
  have e : (Pipeline.afterTail₀ cfgs (dats m) 0 (V0 m) [hostOps1] c main_v2 : S1000000x15x1.Idx → EReal)
      = shapeCast S1000000x15x1 (rowLens (V m c main_v0)) shapeCasts_S1000000x15_S1000000x15x1 := by
    unfold Pipeline.afterTail₀
    show StableHlo.after hostOps1 _ (Proc.devRef .tc main_v2) = _
    after_results
    exact congrArg (fun A : S1000000x15.Idx → EReal => shapeCast S1000000x15x1 A shapeCasts_S1000000x15_S1000000x15x1)
      ((Pipeline.withArrays_arr spec0 launch0.win.arr_inj c (V0 m c) (fun w => (dats m 0 c).arrAt w cfg0.N) 1).trans (final m c))
  rw [e]
  funext i
  obtain ⟨b, k, q, rfl⟩ : ∃ (b : Fin 1000000) (k : Fin 15) (q : Fin 1), i = ix3 b k q := ⟨i 0, i 1, i 2, eq_ix3 i⟩
  rw [G_apply]
  refine (shapeCast_apply (rowLens (V m c main_v0)) _ (ix3 b k q) (ix2 b k) (by
    rw [Shape.rowMajor_val_two, Shape.rowMajor_val_three]
    have := q.isLt
    show b.val * 15 + k.val = (b.val * 15 + k.val) * 1 + q.val
    omega)).trans ?_
  show rowLen (V m c main_v0) b k = _
  exact (congrArg (fun X : S1000000x45.Idx → EReal => rowLen X b k) (V_rows m c)).trans (rowLen_rows _ b k)

/-- The kernel's run: every weakly fair execution terminates with the result at the limb lengths of the poses and the poses
    unchanged. -/
theorem run : θ_run (defs (F := Ideal)) (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c)⟩)
    (run_main m ρ)

end Cert.KernelIdeal.Arr

end
-- ==== Proof.RefRun.lean ====
/-
  The reference's run, read back.

  The reference program is a straight line of sixteen host operations: the table of joined keypoints as a literal,
  its normalization to non-negative indices (compare with zero, add fifteen, select), the gather of each keypoint's
  joined keypoint along the keypoint axis, the difference, its square, the sum over the three coordinates from zero,
  the trailing unit axis, and the square root. Every weakly fair execution terminates with the result buffer at the
  composition of these sixteen pure functions applied to the argument's contents at launch, and the argument unchanged.
-/
import proofs.«116637_j80831284510869_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 16 operations, in order. -/
abbrev ops : List (HloOp τ sig (Elt F)) :=
  [ nullary main_c (fun i => lit0 (S15.rowMajor i)),
    nullary main_c_0 (constantI S_ 32 0#32),
    unary main_c_0 main_v0 (broadcastInDim S15 ![] bcast_S_S15 : (⟨S_, .i32⟩ : BufTy).Contents (Elt F) → (⟨S15, .i32⟩ : BufTy).Contents (Elt F)),
    binary main_c main_v0 main_v1 (cmpi .slt : (⟨S15, .i32⟩ : BufTy).Contents (Elt F) → (⟨S15, .i32⟩ : BufTy).Contents (Elt F) → (⟨S15, .i1⟩ : BufTy).Contents (Elt F)),
    nullary main_c_1 (constantI S_ 32 15#32),
    unary main_c_1 main_v2 (broadcastInDim S15 ![] bcast_S_S15 : (⟨S_, .i32⟩ : BufTy).Contents (Elt F) → (⟨S15, .i32⟩ : BufTy).Contents (Elt F)),
    binary main_c main_v2 main_v3 (addi : (⟨S15, .i32⟩ : BufTy).Contents (Elt F) → (⟨S15, .i32⟩ : BufTy).Contents (Elt F) → (⟨S15, .i32⟩ : BufTy).Contents (Elt F)),
    ternary main_v1 main_v3 main_c main_v4 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v4 main_v5 (broadcastInDim S15x1 ![0] bcast_S15_S15x1_0 : (⟨S15, .i32⟩ : BufTy).Contents (Elt F) → (⟨S15x1, .i32⟩ : BufTy).Contents (Elt F)),
    binary main_arg0 main_v5 main_v6 ((fun x i => Host.gather gather_S1000000x15x3_S15x1_S1000000x15x3_02_1_n_n_1_1_100000013 x i) : (⟨S1000000x15x3, .f32⟩ : BufTy).Contents (Elt F) → (⟨S15x1, .i32⟩ : BufTy).Contents (Elt F) → (⟨S1000000x15x3, .f32⟩ : BufTy).Contents (Elt F)),
    binary main_arg0 main_v6 main_v7 (subf : (⟨S1000000x15x3, .f32⟩ : BufTy).Contents (Elt F) → (⟨S1000000x15x3, .f32⟩ : BufTy).Contents (Elt F) → (⟨S1000000x15x3, .f32⟩ : BufTy).Contents (Elt F)),
    binary main_v7 main_v7 main_v8 (mulf : (⟨S1000000x15x3, .f32⟩ : BufTy).Contents (Elt F) → (⟨S1000000x15x3, .f32⟩ : BufTy).Contents (Elt F) → (⟨S1000000x15x3, .f32⟩ : BufTy).Contents (Elt F)),
    nullary main_cst (constant S_ .f32 0x00000000#32),
    binary main_v8 main_cst main_v9 ((fun x v => Host.reduceAdd x v reducesTo_S1000000x15x3_S1000000x15_d2 h_S_) : (⟨S1000000x15x3, .f32⟩ : BufTy).Contents (Elt F) → (⟨S_, .f32⟩ : BufTy).Contents (Elt F) → (⟨S1000000x15, .f32⟩ : BufTy).Contents (Elt F)),
    unary main_v9 main_v10 (broadcastInDim S1000000x15x1 ![0, 1] bcast_S1000000x15_S1000000x15x1_0_1 : (⟨S1000000x15, .f32⟩ : BufTy).Contents (Elt F) → (⟨S1000000x15x1, .f32⟩ : BufTy).Contents (Elt F)),
    unary main_v10 main_v11 (Host.sqrt : (⟨S1000000x15x1, .f32⟩ : BufTy).Contents (Elt F) → (⟨S1000000x15x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., binary_bufs_sub .., binary_bufs_sub ..,
   nullary_bufs_sub .., binary_bufs_sub .., unary_bufs_sub .., unary_bufs_sub ..⟩

/-- The start indices of the gather: the literal table of joined keypoints, fifteen added to an entry below zero
    (there is none), with a trailing unit axis holding the one component of each start index. -/
def idxTerm : (⟨S15x1, .i32⟩ : BufTy).Contents (Elt F) :=
  broadcastInDim S15x1 ![0] bcast_S15_S15x1_0
    (select (cmpi .slt (fun i => lit0 (S15.rowMajor i)) (broadcastInDim S15 ![] bcast_S_S15 (constantI S_ 32 0#32)))
      (addi (fun i => lit0 (S15.rowMajor i)) (broadcastInDim S15 ![] bcast_S_S15 (constantI S_ 32 15#32)))
      (fun i => lit0 (S15.rowMajor i)))

/-- The difference between every keypoint and the keypoint gathered for it. -/
def diffTerm (x : (⟨S1000000x15x3, .f32⟩ : BufTy).Contents (Elt F)) : (⟨S1000000x15x3, .f32⟩ : BufTy).Contents (Elt F) :=
  subf x (Host.gather gather_S1000000x15x3_S15x1_S1000000x15x3_02_1_n_n_1_1_100000013 x (idxTerm (F := F)))

/-- The sixteen operations composed: the square root of the sum, over the coordinate axis from zero, of the squared
    differences, with a trailing unit axis. -/
def refTerm (x : (⟨S1000000x15x3, .f32⟩ : BufTy).Contents (Elt F)) : (⟨S1000000x15x1, .f32⟩ : BufTy).Contents (Elt F) :=
  Host.sqrt (broadcastInDim S1000000x15x1 ![0, 1] bcast_S1000000x15_S1000000x15x1_0_1
    (Host.reduceAdd (mulf (diffTerm x) (diffTerm x)) (constant S_ .f32 0x00000000#32)
      reducesTo_S1000000x15x3_S1000000x15_d2 h_S_))

/-- On every device, for any float values, from any memory with zero counters: every weakly fair execution of
    @main terminates with the result at the operations' composed term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.RefValue.lean ====
/-
  The reference's value: the limb lengths.

  The composed term of the reference's sixteen operations, read at the ideal values one index at a time, outermost
  operation first: the square root at an index is the extended reals' square root of the element; the element of the
  array with a trailing unit axis is the element of the summed array; the sum over the coordinate axis from the initial
  value zero is the three-term sum; a square is a product, a difference a difference; and the gathered keypoint of
  keypoint `k` is keypoint `parent k`, because the start index the gather reads for `k` is entry `k` of the
  literal table, none of whose entries is negative or above fourteen, so neither the normalization nor the clamp moves it.
-/
import proofs.«116637_j80831284510869_1_alg».proof.Proof.RefRun
import proofs.«116637_j80831284510869_1_alg».proof.Proof.Spec
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-- The gather's dimension numbers. -/
local notation "gd" => gather_S1000000x15x3_S15x1_S1000000x15x3_02_1_n_n_1_1_100000013

/-! ## The gather at an index -/

/-- The start-indices index the gather reads for result index `(b, k, d)`: row `k`, the one component. -/
theorem siIdx_at (b : Fin 1000000) (k : Fin 15) (d : Fin 3) (c : Fin (gd).startIndexMap.length) :
    (gd).siIdx (ix3 b k d) c = ix2 k 0 := by
  have hc : c.val = 0 := by have h : c.val < 1 := c.isLt; omega
  funext a
  refine Fin.ext ?_
  match a with
  | ⟨0, _⟩ => rfl
  | ⟨1, _⟩ => exact hc

/-- THE GATHER READ AT `(b, k, d)`: the operand at pose `b`, coordinate `d`, and the keypoint the start indices name
    for `k`, read signed and clamped into `[0, 14]`. -/
theorem gather_apply {α : Type} {w : Nat} (x : S1000000x15x3.Idx → α) (idx : IVec S15x1 w)
    (b : Fin 1000000) (k : Fin 15) (d : Fin 3) :
    Host.gather gd x idx (ix3 b k d) = x (ix3 b ⟨min (idx (ix2 k 0)).toInt.toNat 14, by omega⟩ d) := by
  unfold Host.gather
  congr 1
  funext a
  refine Fin.ext ?_
  show (gd).start (ix3 b k d) idx a + (gd).batchCoord (ix3 b k d) a + (gd).offCoord (ix3 b k d) a = _
  rw [GatherDims.batchCoord_eq_zero _ _ _ List.not_mem_nil, Nat.add_zero]
  match a with
  | ⟨0, _⟩ =>
    have hs : (gd).start (ix3 b k d) idx ⟨0, by decide⟩ = 0 := by
      unfold GatherDims.start; exact dif_neg (by decide)
    rw [hs, Nat.zero_add]; rfl
  | ⟨1, _⟩ =>
    have ho : (gd).offCoord (ix3 b k d) ⟨1, by decide⟩ = 0 :=
      GatherDims.offCoord_eq_zero _ _ _ (by decide)
    rw [ho, Nat.add_zero]
    unfold GatherDims.start
    rw [dif_pos (show (⟨1, by decide⟩ : Fin S1000000x15x3.rank) ∈ (gd).startIndexMap from by decide), siIdx_at]
    rfl
  | ⟨2, _⟩ =>
    have hs : (gd).start (ix3 b k d) idx ⟨2, by decide⟩ = 0 := by
      unfold GatherDims.start; exact dif_neg (by decide)
    rw [hs, Nat.zero_add]; rfl

/-! ## The start indices -/

/-- The start index the table gives keypoint `k`, read signed and clamped into `[0, 14]`, is `parent k`: entry `k`
    of the literal is not negative, so the normalization keeps it, and it is at most fourteen, so the clamp keeps it. -/
theorem start_at (k : Fin 15) :
    min (BitVec.toInt (idxTerm (F := Ideal) (ix2 k 0))).toNat 14 = (Cert.Limb.parent k).val := by
  fin_cases k <;> rfl

/-! ## The operations at an index -/

/-- The host's square root at an index is the extended reals' square root of the element. -/
theorem sqrt_apply {s : Shape} {φ : FTy} (y : FVec Ideal s φ) (i : s.Idx) : Host.sqrt y i = Ideal.sqrt (y i) := rfl

/-- The difference at `(b, k, d)`: keypoint `k` less the keypoint it is joined to. -/
theorem diff_at (x : FVec Ideal S1000000x15x3 .f32) (b : Fin 1000000) (k : Fin 15) (d : Fin 3) :
    diffTerm (F := Ideal) x (ix3 b k d) = x (ix3 b k d) - x (ix3 b (Cert.Limb.parent k) d) := by
  unfold diffTerm
  rw [subf_apply, gather_apply]
  congr 3
  exact Fin.ext (start_at k)

/-- The sum over the coordinate axis, from the initial value zero, of the squares of an array, at `(b, k)`: the
    three-term sum of the squares at `(b, k, d)`. -/
theorem sumSq_at (D : FVec Ideal S1000000x15x3 .f32) (b : Fin 1000000) (k : Fin 15) :
    Host.reduceAdd (mulf D D) (constant (F := Ideal) S_ .f32 0x00000000#32) reducesTo_S1000000x15x3_S1000000x15_d2 h_S_ (ix2 b k)
      = ∑ d : Fin 3, D (ix3 b k d) * D (ix3 b k d) := by
  have hR : S1000000x15x3.Reduces [2] S1000000x15 := by decide
  rw [hostReduceAdd_apply, Ideal.hostReduceAdd_single _ hR, constant_apply, Ideal.ofBits_zero_f32, zero_add]
  show (∑ d : Fin 3, mulf D D (hR.lift (ix2 b k) d)) = _
  refine Finset.sum_congr rfl fun d _ => ?_
  have hl : hR.lift (ix2 b k) d = ix3 b k d := by
    funext a
    refine Fin.ext ?_
    match a with
    | ⟨0, _⟩ => rfl
    | ⟨1, _⟩ => rfl
    | ⟨2, _⟩ => rfl
  rw [hl, mulf_apply]

/-! ## The value -/

/-- The composed term at the ideal values is the limb lengths. -/
theorem refTerm_eq (x : (⟨S1000000x15x3, .f32⟩ : BufTy).Contents (Elt Ideal)) :
    refTerm (F := Ideal) x = Cert.Limb.G x := by
  funext i
  obtain ⟨b, k, q, rfl⟩ : ∃ (b : Fin 1000000) (k : Fin 15) (q : Fin 1), i = ix3 b k q := ⟨i 0, i 1, i 2, eq_ix3 i⟩
  rw [Cert.Limb.G_apply]
  unfold refTerm Cert.Limb.len
  rw [sqrt_apply, broadcastInDim_apply _ _ _ _ (ix2 b k) (fun a => by
    match a with
    | ⟨0, _⟩ => rfl
    | ⟨1, _⟩ => rfl), sumSq_at]
  refine congrArg Ideal.sqrt (Finset.sum_congr rfl fun d _ => ?_)
  rw [diff_at]
  rfl

/-- On every device, from any memory with zero counters: every weakly fair execution of the reference terminates with
    its result buffer at the limb lengths of the argument's contents at launch, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Limb.G (m ((c.tc : Thread nD τ).loc main_arg0))
      ∧ r.2.mem ((c.tc : Thread nD τ).loc main_arg0) = m ((c.tc : Thread nD τ).loc main_arg0) :=
  (θ_run _ _ _).mono (fun _ h c => ⟨(h c).1.trans (refTerm_eq _), (h c).2⟩) (Cert.ReferenceIdeal.RefRun.run m ρ)

end Cert.ReferenceIdeal.RefValue

end
-- ==== Proof.lean ====
/-
  Limb lengths of a skeleton: the kernel against its reference, over the extended reals.

  A pose is 15 keypoints in 3-space, and keypoint `k` is joined to keypoint `parent k`. For a million poses both programs
  return, for every keypoint, its distance to the keypoint it is joined to: the square root of the sum over the three
  coordinates of the squared difference (`Cert.Limb.G`, Proof/Spec.lean).

  The kernel re-lays the poses as rows of 45 numbers, and on each block of 8000 rows cuts, for each keypoint, its three
  lanes and the three lanes of the keypoint it is joined to, subtracts, squares, sums each row's three lanes and takes the
  square root, storing one column per keypoint; the fifteen columns tile the block of results, the 125 blocks cover the rows,
  and the rows are re-laid with a trailing unit axis (Proof/KerCol.lean, KerOut.lean, KerArr.lean). The reference gathers, for
  each keypoint, the keypoint the literal table names (no entry of the table is negative or above fourteen, so it is read
  as it stands), subtracts, squares, sums over the coordinate axis from zero and takes the square root (Proof/RefRun.lean,
  RefValue.lean). Index by index the two are the same differences, the same squares and the same three-term sum, so the
  results agree on every extended real; the precondition is not used. The idealization rewrote nothing, so it preserves
  the kernel trivially. Each program runs to the end without a fault and leaves its argument as it was: the kernel's two
  readings by the frame of its one region, the reference by its run.
-/
import proofs.«116637_j80831284510869_1_alg».proof.Defs
import proofs.«116637_j80831284510869_1_alg».proof.Proof.Gen.Kernel
import proofs.«116637_j80831284510869_1_alg».proof.Proof.Gen.Kernel.Skeleton
import proofs.«116637_j80831284510869_1_alg».proof.Proof.Gen.Kernel.Launch
import proofs.«116637_j80831284510869_1_alg».proof.Proof.Gen.Kernel.Points
import proofs.«116637_j80831284510869_1_alg».proof.Proof.Gen.Kernel.Frame
import proofs.«116637_j80831284510869_1_alg».proof.Proof.Gen.KernelIdeal
import proofs.«116637_j80831284510869_1_alg».proof.Proof.Gen.KernelIdeal.Skeleton
import proofs.«116637_j80831284510869_1_alg».proof.Proof.Gen.KernelIdeal.Launch
import proofs.«116637_j80831284510869_1_alg».proof.Proof.Gen.KernelIdeal.Points
import proofs.«116637_j80831284510869_1_alg».proof.Proof.Gen.KernelIdeal.Frame
import proofs.«116637_j80831284510869_1_alg».proof.Proof.Gen.ReferenceIdeal
import proofs.«116637_j80831284510869_1_alg».proof.Proof.Gen.Pre_finite_inputs
import proofs.«116637_j80831284510869_1_alg».proof.Proof.KerArr
import proofs.«116637_j80831284510869_1_alg».proof.Proof.RefValue
import Idealize.ShloMosaic.Adequacy
import Idealize.ShloMosaic.Init

noncomputable section

namespace Cert.Proof

open Idealize.ShloMosaic Idealize.SL.Sem

/-- The kernel as printed runs to the end and keeps its argument: the frame of its one region. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The reference runs to the end and keeps its argument: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the poses both programs end with the limb lengths of those poses. -/
theorem algebraic : Cert.algebraic_KernelIdeal_ReferenceIdeal := by
  intro m ρ m' ρ' _ hagree
  refine ⟨fun c => Cert.Limb.G (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
